-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S7x4 : Shape := ⟨2, ![7, 4]⟩
abbrev S24x4 : Shape := ⟨2, ![24, 4]⟩
abbrev S2x4 : Shape := ⟨2, ![2, 4]⟩
abbrev S100x4 : Shape := ⟨2, ![100, 4]⟩
abbrev S12x4 : Shape := ⟨2, ![12, 4]⟩
abbrev S31x4 : Shape := ⟨2, ![31, 4]⟩
abbrev S24x32 : Shape := ⟨2, ![24, 32]⟩
abbrev S32 : Shape := ⟨1, ![32]⟩
abbrev S100000x32 : Shape := ⟨2, ![100000, 32]⟩
abbrev S_ : Shape := ⟨0, ![]⟩

class Facts : Prop where
  bcast_S_S7x4 : S_.BroadcastsInDim S7x4 (![] : Fin 0 → Fin S7x4.rank)
  reducesTo_S7x4_S_d0_1 : S7x4.ReducesTo [0, 1] S_
  h_S_ : 0 < S_.numel
  bcast_S_S24x4 : S_.BroadcastsInDim S24x4 (![] : Fin 0 → Fin S24x4.rank)
  reducesTo_S24x4_S_d0_1 : S24x4.ReducesTo [0, 1] S_
  bcast_S_S2x4 : S_.BroadcastsInDim S2x4 (![] : Fin 0 → Fin S2x4.rank)
  reducesTo_S2x4_S_d0_1 : S2x4.ReducesTo [0, 1] S_
  bcast_S_S100x4 : S_.BroadcastsInDim S100x4 (![] : Fin 0 → Fin S100x4.rank)
  reducesTo_S100x4_S_d0_1 : S100x4.ReducesTo [0, 1] S_
  bcast_S_S12x4 : S_.BroadcastsInDim S12x4 (![] : Fin 0 → Fin S12x4.rank)
  reducesTo_S12x4_S_d0_1 : S12x4.ReducesTo [0, 1] S_
  bcast_S_S31x4 : S_.BroadcastsInDim S31x4 (![] : Fin 0 → Fin S31x4.rank)
  reducesTo_S31x4_S_d0_1 : S31x4.ReducesTo [0, 1] S_
  bcast_S_S24x32 : S_.BroadcastsInDim S24x32 (![] : Fin 0 → Fin S24x32.rank)
  reducesTo_S24x32_S_d0_1 : S24x32.ReducesTo [0, 1] S_
  bcast_S_S32 : S_.BroadcastsInDim S32 (![] : Fin 0 → Fin S32.rank)
  reducesTo_S32_S_d0 : S32.ReducesTo [0] S_
  bcast_S_S100000x32 : S_.BroadcastsInDim S100000x32 (![] : Fin 0 → Fin S100000x32.rank)
  reducesTo_S100000x32_S_d0_1 : S100000x32.ReducesTo [0, 1] S_

variable [Facts]

def fn_part2 {F : FTy → Type} [FloatOps F] (main_arg14 : FVec F S32 .f32) (main_arg15 : FVec F S100000x32 .f32) (main_v33 : IVec S_ 1) : IVec S_ 1 :=
  let main_v34 : FVec F S32 .f32 := Host.absf main_arg14
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S100000x32 .f32 := Host.absf main_arg15
  let main_cst_14 : FVec F S_ .f32 := constant S_ .f32 0x7F800000#32
  let main_v40 : FVec F S100000x32 .f32 := broadcastInDim S100000x32 ![] bcast_S_S100000x32 main_cst_14
  let main_v41 : IVec S100000x32 1 := cmpf .olt main_v39 main_v40
  let main_c_15 : IVec S_ 1 := constantI S_ 1 1#1
  let main_v42 : IVec S_ 1 := (fun x v => Host.reduce IntOp.andi x v reducesTo_S100000x32_S_d0_1 h_S_) main_v41 main_c_15
  let main_v43 : IVec S_ 1 := andi main_v38 main_v42
  main_v43

def fn_part1 {F : FTy → Type} [FloatOps F] (main_arg11 : FVec F S12x4 .f32) (main_arg12 : FVec F S31x4 .f32) (main_arg13 : FVec F S24x32 .f32) (main_arg14 : FVec F S32 .f32) (main_arg15 : FVec F S100000x32 .f32) (main_v13 : IVec S_ 1) (main_v16 : IVec S100x4 1) : IVec S_ 1 :=
  let main_c_5 : IVec S_ 1 := constantI S_ 1 1#1
  let main_v17 : IVec S_ 1 := (fun x v => Host.reduce IntOp.andi x v reducesTo_S100x4_S_d0_1 h_S_) main_v16 main_c_5
  let main_v18 : IVec S_ 1 := andi main_v13 main_v17
  let main_v19 : FVec F S12x4 .f32 := Host.absf main_arg11
  let main_cst_6 : FVec F S_ .f32 := constant S_ .f32 0x7F800000#32
  let main_v20 : FVec F S12x4 .f32 := broadcastInDim S12x4 ![] bcast_S_S12x4 main_cst_6
  let main_v21 : IVec S12x4 1 := cmpf .olt main_v19 main_v20
  let main_c_7 : IVec S_ 1 := constantI S_ 1 1#1
  let main_v22 : IVec S_ 1 := (fun x v => Host.reduce IntOp.andi x v reducesTo_S12x4_S_d0_1 h_S_) main_v21 main_c_7
  let main_v23 : IVec S_ 1 := andi main_v18 main_v22
  let main_v24 : FVec F S31x4 .f32 := Host.absf main_arg12
  let main_cst_8 : FVec F S_ .f32 := constant S_ .f32 0x7F800000#32
  let main_v25 : FVec F S31x4 .f32 := broadcastInDim S31x4 ![] bcast_S_S31x4 main_cst_8
  let main_v26 : IVec S31x4 1 := cmpf .olt main_v24 main_v25
  let main_c_9 : IVec S_ 1 := constantI S_ 1 1#1
  let main_v27 : IVec S_ 1 := (fun x v => Host.reduce IntOp.andi x v reducesTo_S31x4_S_d0_1 h_S_) main_v26 main_c_9
  let main_v28 : IVec S_ 1 := andi main_v23 main_v27
  let main_v29 : FVec F S24x32 .f32 := Host.absf main_arg13
  let main_cst_10 : FVec F S_ .f32 := constant S_ .f32 0x7F800000#32
  let main_v30 : FVec F S24x32 .f32 := broadcastInDim S24x32 ![] bcast_S_S24x32 main_cst_10
  let main_v31 : IVec S24x32 1 := cmpf .olt main_v29 main_v30
  let main_c_11 : IVec S_ 1 := constantI S_ 1 1#1
  let main_v32 : IVec S_ 1 := (fun x v => Host.reduce IntOp.andi x v reducesTo_S24x32_S_d0_1 h_S_) main_v31 main_c_11
  let main_v33 : IVec S_ 1 := andi main_v28 main_v32
  fn_part2 (F := F) main_arg14 main_arg15 main_v33

def fn {F : FTy → Type} [FloatOps F] (main_arg0 : IVec S2097152 32) (main_arg1 : IVec S2097152 32) (main_arg2 : IVec S2097152 32) (main_arg3 : IVec S2097152 32) (main_arg4 : IVec S2097152 32) (main_arg5 : IVec S2097152 32) (main_arg6 : IVec S2097152 32) (main_arg7 : FVec F S7x4 .f32) (main_arg8 : FVec F S24x4 .f32) (main_arg9 : FVec F S2x4 .f32) (main_arg10 : FVec F S100x4 .f32) (main_arg11 : FVec F S12x4 .f32) (main_arg12 : FVec F S31x4 .f32) (main_arg13 : FVec F S24x32 .f32) (main_arg14 : FVec F S32 .f32) (main_arg15 : FVec F S100000x32 .f32) : IVec S_ 1 :=
  let main_v0 : FVec F S7x4 .f32 := Host.absf main_arg7
  let main_cst : FVec F S_ .f32 := constant S_ .f32 0x7F800000#32
  let main_v1 : FVec F S7x4 .f32 := broadcastInDim S7x4 ![] bcast_S_S7x4 main_cst
  let main_v2 : IVec S7x4 1 := cmpf .olt main_v0 main_v1
  let main_c : IVec S_ 1 := constantI S_ 1 1#1
  let main_v3 : IVec S_ 1 := (fun x v => Host.reduce IntOp.andi x v reducesTo_S7x4_S_d0_1 h_S_) main_v2 main_c
  let main_v4 : FVec F S24x4 .f32 := Host.absf main_arg8
  let main_cst_0 : FVec F S_ .f32 := constant S_ .f32 0x7F800000#32
  let main_v5 : FVec F S24x4 .f32 := broadcastInDim S24x4 ![] bcast_S_S24x4 main_cst_0
  let main_v6 : IVec S24x4 1 := cmpf .olt main_v4 main_v5
  let main_c_1 : IVec S_ 1 := constantI S_ 1 1#1
  let main_v7 : IVec S_ 1 := (fun x v => Host.reduce IntOp.andi x v reducesTo_S24x4_S_d0_1 h_S_) main_v6 main_c_1
  let main_v8 : IVec S_ 1 := andi main_v3 main_v7
  let main_v9 : FVec F S2x4 .f32 := Host.absf main_arg9
  let main_cst_2 : FVec F S_ .f32 := constant S_ .f32 0x7F800000#32
  let main_v10 : FVec F S2x4 .f32 := broadcastInDim S2x4 ![] bcast_S_S2x4 main_cst_2
  let main_v11 : IVec S2x4 1 := cmpf .olt main_v9 main_v10
  let main_c_3 : IVec S_ 1 := constantI S_ 1 1#1
  let main_v12 : IVec S_ 1 := (fun x v => Host.reduce IntOp.andi x v reducesTo_S2x4_S_d0_1 h_S_) main_v11 main_c_3
  let main_v13 : IVec S_ 1 := andi main_v8 main_v12
  let main_v14 : FVec F S100x4 .f32 := Host.absf main_arg10
  let main_cst_4 : FVec F S_ .f32 := constant S_ .f32 0x7F800000#32
  let main_v15 : FVec F S100x4 .f32 := broadcastInDim S100x4 ![] bcast_S_S100x4 main_cst_4
  let main_v16 : IVec S100x4 1 := cmpf .olt main_v14 main_v15
  fn_part1 (F := F) main_arg11 main_arg12 main_arg13 main_arg14 main_arg15 main_v13 main_v16
-- ==== Kernel.lean ====
abbrev S2097152 : Shape := ⟨1, ![2097152]⟩
abbrev S7x4 : Shape := ⟨2, ![7, 4]⟩
abbrev S24x4 : Shape := ⟨2, ![24, 4]⟩
abbrev S2x4 : Shape := ⟨2, ![2, 4]⟩
abbrev S100x4 : Shape := ⟨2, ![100, 4]⟩
abbrev S12x4 : Shape := ⟨2, ![12, 4]⟩
abbrev S31x4 : Shape := ⟨2, ![31, 4]⟩
abbrev S24x32 : Shape := ⟨2, ![24, 32]⟩
abbrev S32 : Shape := ⟨1, ![32]⟩
abbrev S100000x32 : Shape := ⟨2, ![100000, 32]⟩
abbrev S_ : Shape := ⟨0, ![]⟩
abbrev S2097152x1 : Shape := ⟨2, ![2097152, 1]⟩
abbrev S2097152x4 : Shape := ⟨2, ![2097152, 4]⟩
abbrev S2097152x24 : Shape := ⟨2, ![2097152, 24]⟩
abbrev S2097152x32 : Shape := ⟨2, ![2097152, 32]⟩
abbrev S1x32 : Shape := ⟨2, ![1, 32]⟩
abbrev S8192x32 : Shape := ⟨2, ![8192, 32]⟩
abbrev S8192 : Shape := ⟨1, ![8192]⟩

abbrev nBuf : Space → Nat
  | .hbm => 87
  | .vmem => 6
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S2097152, .i32⟩
  | .hbm, ⟨7, _⟩ => ⟨S7x4, .f32⟩
  | .hbm, ⟨8, _⟩ => ⟨S24x4, .f32⟩
  | .hbm, ⟨9, _⟩ => ⟨S2x4, .f32⟩
  | .hbm, ⟨10, _⟩ => ⟨S100x4, .f32⟩
  | .hbm, ⟨11, _⟩ => ⟨S12x4, .f32⟩
  | .hbm, ⟨12, _⟩ => ⟨S31x4, .f32⟩
  | .hbm, ⟨13, _⟩ => ⟨S24x32, .f32⟩
  | .hbm, ⟨14, _⟩ => ⟨S32, .f32⟩
  | .hbm, ⟨15, _⟩ => ⟨S100000x32, .f32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S2097152x4, .f32⟩
  | .hbm, ⟨25, _⟩ => ⟨S_, .i32⟩
  | .hbm, ⟨26, _⟩ => ⟨S2097152, .i32⟩
  | .hbm, ⟨27, _⟩ => ⟨S2097152, .i1⟩
  | .hbm, ⟨28, _⟩ => ⟨S_, .i32⟩
  | .hbm, ⟨29, _⟩ => ⟨S2097152, .i32⟩
  | .hbm, ⟨30, _⟩ => ⟨S2097152, .i32⟩
  | .hbm, ⟨31, _⟩ => ⟨S2097152, .i32⟩
  | .hbm, ⟨32, _⟩ => ⟨S2097152x1, .i32⟩
  | .hbm, ⟨33, _⟩ => ⟨S2097152x4, .f32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S2097152x4, .f32⟩
  | .hbm, ⟨43, _⟩ => ⟨S_, .i32⟩
  | .hbm, ⟨44, _⟩ => ⟨S2097152, .i32⟩
  | .hbm, ⟨45, _⟩ => ⟨S2097152, .i1⟩
  | .hbm, ⟨46, _⟩ => ⟨S_, .i32⟩
  | .hbm, ⟨47, _⟩ => ⟨S2097152, .i32⟩
  | .hbm, ⟨48, _⟩ => ⟨S2097152, .i32⟩
  | .hbm, ⟨49, _⟩ => ⟨S2097152, .i32⟩
  | .hbm, ⟨50, _⟩ => ⟨S2097152x1, .i32⟩
  | .hbm, ⟨51, _⟩ => ⟨S2097152x4, .f32⟩
  | .hbm, ⟨52, _⟩ => ⟨S_, .i32⟩
  | .hbm, ⟨53, _⟩ => ⟨S2097152, .i32⟩
  | .hbm, ⟨54, _⟩ => ⟨S2097152, .i1⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S2097152, .i32⟩
  | .hbm, ⟨59, _⟩ => ⟨S2097152x1, .i32⟩
  | .hbm, ⟨60, _⟩ => ⟨S2097152x4, .f32⟩
  | .hbm, ⟨61, _⟩ => ⟨S_, .i32⟩
  | .hbm, ⟨62, _⟩ => ⟨S2097152, .i32⟩
  | .hbm, ⟨63, _⟩ => ⟨S2097152, .i1⟩
  | .hbm, ⟨64, _⟩ => ⟨S_, .i32⟩
  | .hbm, ⟨65, _⟩ => ⟨S2097152, .i32⟩
  | .hbm, ⟨66, _⟩ => ⟨S2097152, .i32⟩
  | .hbm, ⟨67, _⟩ => ⟨S2097152, .i32⟩
  | .hbm, ⟨68, _⟩ => ⟨S2097152x1, .i32⟩
  | .hbm, ⟨69, _⟩ => ⟨S2097152x4, .f32⟩
  | .hbm, ⟨70, _⟩ => ⟨S2097152x24, .f32⟩
  | .hbm, ⟨71, _⟩ => ⟨S2097152x32, .f32⟩
  | .hbm, ⟨72, _⟩ => ⟨S1x32, .f32⟩
  | .hbm, ⟨73, _⟩ => ⟨S2097152x32, .f32⟩
  | .hbm, ⟨74, _⟩ => ⟨S2097152x32, .f32⟩
  | .hbm, ⟨75, _⟩ => ⟨S_, .i32⟩
  | .hbm, ⟨76, _⟩ => ⟨S2097152, .i32⟩
  | .hbm, ⟨77, _⟩ => ⟨S2097152, .i1⟩
  | .hbm, ⟨78, _⟩ => ⟨S_, .i32⟩
  | .hbm, ⟨79, _⟩ => ⟨S2097152, .i32⟩
  | .hbm, ⟨80, _⟩ => ⟨S2097152, .i32⟩
  | .hbm, ⟨81, _⟩ => ⟨S2097152, .i32⟩
  | .hbm, ⟨82, _⟩ => ⟨S2097152x1, .i32⟩
  | .hbm, ⟨83, _⟩ => ⟨S2097152x32, .f32⟩
  | .hbm, ⟨84, _⟩ => ⟨S2097152x32, .bf16⟩
  | .hbm, ⟨85, _⟩ => ⟨S2097152x32, .bf16⟩
  | .hbm, ⟨86, _⟩ => ⟨S2097152, .f32⟩
  | .local _ .vmem, ⟨0, _⟩ => ⟨S8192x32, .bf16⟩
  | .local _ .vmem, ⟨1, _⟩ => ⟨S8192x32, .bf16⟩
  | .local _ .vmem, ⟨2, _⟩ => ⟨S8192x32, .bf16⟩
  | .local _ .vmem, ⟨3, _⟩ => ⟨S8192x32, .bf16⟩
  | .local _ .vmem, ⟨4, _⟩ => ⟨S8192, .f32⟩
  | .local _ .vmem, ⟨5, _⟩ => ⟨S8192, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x4_S2097152x4_S2097152x4_S2097152x4_S2097152x4_S2097152x4_S2097152x24_d1 : Shape.Concatenates [S2097152x4, S2097152x4, S2097152x4, S2097152x4, S2097152x4, S2097152x4] S2097152x24 1
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  reduces_S8192x32_S8192 : S8192x32.Reduces [1] S8192
  inb_S8192_S8192_0 : ∀ a, (![0] : Fin 1 → Nat) a + S8192.size a ≤ S8192.size a
  h_S8192 : 0 < S8192.numel
  gather_S7x4_S2097152x1_S2097152x4_1_0_n_n_0_1_14_wf : GatherDims.WF S7x4 S2097152x1 S2097152x4 [1] [0] [] [0] [] 1 ![1, 4]
  gather_S24x4_S2097152x1_S2097152x4_1_0_n_n_0_1_14_wf : GatherDims.WF S24x4 S2097152x1 S2097152x4 [1] [0] [] [0] [] 1 ![1, 4]
  gather_S2x4_S2097152x1_S2097152x4_1_0_n_n_0_1_14_wf : GatherDims.WF S2x4 S2097152x1 S2097152x4 [1] [0] [] [0] [] 1 ![1, 4]
  gather_S100x4_S2097152x1_S2097152x4_1_0_n_n_0_1_14_wf : GatherDims.WF S100x4 S2097152x1 S2097152x4 [1] [0] [] [0] [] 1 ![1, 4]
  gather_S12x4_S2097152x1_S2097152x4_1_0_n_n_0_1_14_wf : GatherDims.WF S12x4 S2097152x1 S2097152x4 [1] [0] [] [0] [] 1 ![1, 4]
  gather_S31x4_S2097152x1_S2097152x4_1_0_n_n_0_1_14_wf : GatherDims.WF S31x4 S2097152x1 S2097152x4 [1] [0] [] [0] [] 1 ![1, 4]
  dot_S2097152x24_S24x32_S2097152x32_1_0_0_1_n_n_wf : DotDims.WF S2097152x24 S24x32 S2097152x32 [1] [0] [0] [1] [] []
  gather_S100000x32_S2097152x1_S2097152x32_1_0_n_n_0_1_132_wf : GatherDims.WF S100000x32 S2097152x1 S2097152x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .bf16 = 32 ∨ (Rect.block (s := S2097152x32) S8192x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S2097152x32.size a
  hwx0_1 : ∀ i : grid0.Coords, EltTy.bits .bf16 = 32 ∨ (Rect.block (s := S2097152x32) S8192x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S2097152.size a
  hwx0_2 : ∀ i : grid0.Coords, EltTy.bits .f32 = 32 ∨ (Rect.block (s := S2097152) S8192.size (cc0_transform_2 i) (hinb0_2 i)).WholeWords (EltTy.packing .f32)

variable [Facts₀]

def gather_S7x4_S2097152x1_S2097152x4_1_0_n_n_0_1_14 : GatherDims S7x4 S2097152x1 S2097152x4 where
  offsetDims := [1]
  collapsedSliceDims := [0]
  operandBatchingDims := []
  startIndicesBatchingDims := []
  startIndexMap := [0]
  indexVectorDim := 1
  sliceSizes := ![1, 4]
  wf := gather_S7x4_S2097152x1_S2097152x4_1_0_n_n_0_1_14_wf
def gather_S24x4_S2097152x1_S2097152x4_1_0_n_n_0_1_14 : GatherDims S24x4 S2097152x1 S2097152x4 where
  offsetDims := [1]
  collapsedSliceDims := [0]
  operandBatchingDims := []
  startIndicesBatchingDims := []
  startIndexMap := [0]
  indexVectorDim := 1
  sliceSizes := ![1, 4]
  wf := gather_S24x4_S2097152x1_S2097152x4_1_0_n_n_0_1_14_wf
def gather_S2x4_S2097152x1_S2097152x4_1_0_n_n_0_1_14 : GatherDims S2x4 S2097152x1 S2097152x4 where
  offsetDims := [1]
  collapsedSliceDims := [0]
  operandBatchingDims := []
  startIndicesBatchingDims := []
  startIndexMap := [0]
  indexVectorDim := 1
  sliceSizes := ![1, 4]
  wf := gather_S2x4_S2097152x1_S2097152x4_1_0_n_n_0_1_14_wf
def gather_S100x4_S2097152x1_S2097152x4_1_0_n_n_0_1_14 : GatherDims S100x4 S2097152x1 S2097152x4 where
  offsetDims := [1]
  collapsedSliceDims := [0]
  operandBatchingDims := []
  startIndicesBatchingDims := []
  startIndexMap := [0]
  indexVectorDim := 1
  sliceSizes := ![1, 4]
  wf := gather_S100x4_S2097152x1_S2097152x4_1_0_n_n_0_1_14_wf
def gather_S12x4_S2097152x1_S2097152x4_1_0_n_n_0_1_14 : GatherDims S12x4 S2097152x1 S2097152x4 where
  offsetDims := [1]
  collapsedSliceDims := [0]
  operandBatchingDims := []
  startIndicesBatchingDims := []
  startIndexMap := [0]
  indexVectorDim := 1
  sliceSizes := ![1, 4]
  wf := gather_S12x4_S2097152x1_S2097152x4_1_0_n_n_0_1_14_wf
def gather_S31x4_S2097152x1_S2097152x4_1_0_n_n_0_1_14 : GatherDims S31x4 S2097152x1 S2097152x4 where
  offsetDims := [1]
  collapsedSliceDims := [0]
  operandBatchingDims := []
  startIndicesBatchingDims := []
  startIndexMap := [0]
  indexVectorDim := 1
  sliceSizes := ![1, 4]
  wf := gather_S31x4_S2097152x1_S2097152x4_1_0_n_n_0_1_14_wf
def dot_S2097152x24_S24x32_S2097152x32_1_0_0_1_n_n : DotDims S2097152x24 S24x32 S2097152x32 where
  lhsContracting := [1]
  rhsContracting := [0]
  lhsNonContracting := [0]
  rhsNonContracting := [1]
  lhsBatch := []
  rhsBatch := []
  wf := dot_S2097152x24_S24x32_S2097152x32_1_0_0_1_n_n_wf
def gather_S100000x32_S2097152x1_S2097152x32_1_0_n_n_0_1_132 : GatherDims S100000x32 S2097152x1 S2097152x32 where
  offsetDims := [1]
  collapsedSliceDims := [0]
  operandBatchingDims := []
  startIndicesBatchingDims := []
  startIndexMap := [0]
  indexVectorDim := 1
  sliceSizes := ![1, 32]
  wf := gather_S100000x32_S2097152x1_S2097152x32_1_0_n_n_0_1_132_wf

abbrev win0_0 : Pipeline.Window sig grid0 :=
  Pipeline.Window.ofSpec (Memref.whole main_v54) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152 : Shape := ⟨1, ![2097152]⟩
abbrev S7x4 : Shape := ⟨2, ![7, 4]⟩
abbrev S24x4 : Shape := ⟨2, ![24, 4]⟩
abbrev S2x4 : Shape := ⟨2, ![2, 4]⟩
abbrev S100x4 : Shape := ⟨2, ![100, 4]⟩
abbrev S12x4 : Shape := ⟨2, ![12, 4]⟩
abbrev S31x4 : Shape := ⟨2, ![31, 4]⟩
abbrev S24x32 : Shape := ⟨2, ![24, 32]⟩
abbrev S32 : Shape := ⟨1, ![32]⟩
abbrev S100000x32 : Shape := ⟨2, ![100000, 32]⟩
abbrev S_ : Shape := ⟨0, ![]⟩
abbrev S2097152x1 : Shape := ⟨2, ![2097152, 1]⟩
abbrev S2097152x4 : Shape := ⟨2, ![2097152, 4]⟩
abbrev S2097152x24 : Shape := ⟨2, ![2097152, 24]⟩
abbrev S2097152x32 : Shape := ⟨2, ![2097152, 32]⟩
abbrev S1x32 : Shape := ⟨2, ![1, 32]⟩

abbrev nBuf : Space → Nat
  | .hbm => 87
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S2097152, .i32⟩
  | .hbm, ⟨7, _⟩ => ⟨S7x4, .f32⟩
  | .hbm, ⟨8, _⟩ => ⟨S24x4, .f32⟩
  | .hbm, ⟨9, _⟩ => ⟨S2x4, .f32⟩
  | .hbm, ⟨10, _⟩ => ⟨S100x4, .f32⟩
  | .hbm, ⟨11, _⟩ => ⟨S12x4, .f32⟩
  | .hbm, ⟨12, _⟩ => ⟨S31x4, .f32⟩
  | .hbm, ⟨13, _⟩ => ⟨S24x32, .f32⟩
  | .hbm, ⟨14, _⟩ => ⟨S32, .f32⟩
  | .hbm, ⟨15, _⟩ => ⟨S100000x32, .f32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S2097152x4, .f32⟩
  | .hbm, ⟨25, _⟩ => ⟨S_, .i32⟩
  | .hbm, ⟨26, _⟩ => ⟨S2097152, .i32⟩
  | .hbm, ⟨27, _⟩ => ⟨S2097152, .i1⟩
  | .hbm, ⟨28, _⟩ => ⟨S_, .i32⟩
  | .hbm, ⟨29, _⟩ => ⟨S2097152, .i32⟩
  | .hbm, ⟨30, _⟩ => ⟨S2097152, .i32⟩
  | .hbm, ⟨31, _⟩ => ⟨S2097152, .i32⟩
  | .hbm, ⟨32, _⟩ => ⟨S2097152x1, .i32⟩
  | .hbm, ⟨33, _⟩ => ⟨S2097152x4, .f32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S2097152x4, .f32⟩
  | .hbm, ⟨43, _⟩ => ⟨S_, .i32⟩
  | .hbm, ⟨44, _⟩ => ⟨S2097152, .i32⟩
  | .hbm, ⟨45, _⟩ => ⟨S2097152, .i1⟩
  | .hbm, ⟨46, _⟩ => ⟨S_, .i32⟩
  | .hbm, ⟨47, _⟩ => ⟨S2097152, .i32⟩
  | .hbm, ⟨48, _⟩ => ⟨S2097152, .i32⟩
  | .hbm, ⟨49, _⟩ => ⟨S2097152, .i32⟩
  | .hbm, ⟨50, _⟩ => ⟨S2097152x1, .i32⟩
  | .hbm, ⟨51, _⟩ => ⟨S2097152x4, .f32⟩
  | .hbm, ⟨52, _⟩ => ⟨S_, .i32⟩
  | .hbm, ⟨53, _⟩ => ⟨S2097152, .i32⟩
  | .hbm, ⟨54, _⟩ => ⟨S2097152, .i1⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S2097152, .i32⟩
  | .hbm, ⟨59, _⟩ => ⟨S2097152x1, .i32⟩
  | .hbm, ⟨60, _⟩ => ⟨S2097152x4, .f32⟩
  | .hbm, ⟨61, _⟩ => ⟨S_, .i32⟩
  | .hbm, ⟨62, _⟩ => ⟨S2097152, .i32⟩
  | .hbm, ⟨63, _⟩ => ⟨S2097152, .i1⟩
  | .hbm, ⟨64, _⟩ => ⟨S_, .i32⟩
  | .hbm, ⟨65, _⟩ => ⟨S2097152, .i32⟩
  | .hbm, ⟨66, _⟩ => ⟨S2097152, .i32⟩
  | .hbm, ⟨67, _⟩ => ⟨S2097152, .i32⟩
  | .hbm, ⟨68, _⟩ => ⟨S2097152x1, .i32⟩
  | .hbm, ⟨69, _⟩ => ⟨S2097152x4, .f32⟩
  | .hbm, ⟨70, _⟩ => ⟨S2097152x24, .f32⟩
  | .hbm, ⟨71, _⟩ => ⟨S2097152x32, .f32⟩
  | .hbm, ⟨72, _⟩ => ⟨S1x32, .f32⟩
  | .hbm, ⟨73, _⟩ => ⟨S2097152x32, .f32⟩
  | .hbm, ⟨74, _⟩ => ⟨S2097152x32, .f32⟩
  | .hbm, ⟨75, _⟩ => ⟨S_, .i32⟩
  | .hbm, ⟨76, _⟩ => ⟨S2097152, .i32⟩
  | .hbm, ⟨77, _⟩ => ⟨S2097152, .i1⟩
  | .hbm, ⟨78, _⟩ => ⟨S_, .i32⟩
  | .hbm, ⟨79, _⟩ => ⟨S2097152, .i32⟩
  | .hbm, ⟨80, _⟩ => ⟨S2097152, .i32⟩
  | .hbm, ⟨81, _⟩ => ⟨S2097152, .i32⟩
  | .hbm, ⟨82, _⟩ => ⟨S2097152x1, .i32⟩
  | .hbm, ⟨83, _⟩ => ⟨S2097152x32, .f32⟩
  | .hbm, ⟨84, _⟩ => ⟨S2097152x32, .f32⟩
  | .hbm, ⟨85, _⟩ => ⟨S_, .f32⟩
  | .hbm, ⟨86, _⟩ => ⟨S2097152, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst : Ref sig .tc := ⟨.hbm, 85, rfl⟩
abbrev main_v55 : Ref sig .tc := ⟨.hbm, 86, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x4_S2097152x4_S2097152x4_S2097152x4_S2097152x4_S2097152x4_S2097152x24_d1 : Shape.Concatenates [S2097152x4, S2097152x4, S2097152x4, S2097152x4, S2097152x4, S2097152x4] S2097152x24 1
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  reducesTo_S2097152x32_S2097152_d1 : S2097152x32.ReducesTo [1] S2097152
  h_S_ : 0 < S_.numel
  gather_S7x4_S2097152x1_S2097152x4_1_0_n_n_0_1_14_wf : GatherDims.WF S7x4 S2097152x1 S2097152x4 [1] [0] [] [0] [] 1 ![1, 4]
  gather_S24x4_S2097152x1_S2097152x4_1_0_n_n_0_1_14_wf : GatherDims.WF S24x4 S2097152x1 S2097152x4 [1] [0] [] [0] [] 1 ![1, 4]
  gather_S2x4_S2097152x1_S2097152x4_1_0_n_n_0_1_14_wf : GatherDims.WF S2x4 S2097152x1 S2097152x4 [1] [0] [] [0] [] 1 ![1, 4]
  gather_S100x4_S2097152x1_S2097152x4_1_0_n_n_0_1_14_wf : GatherDims.WF S100x4 S2097152x1 S2097152x4 [1] [0] [] [0] [] 1 ![1, 4]
  gather_S12x4_S2097152x1_S2097152x4_1_0_n_n_0_1_14_wf : GatherDims.WF S12x4 S2097152x1 S2097152x4 [1] [0] [] [0] [] 1 ![1, 4]
  gather_S31x4_S2097152x1_S2097152x4_1_0_n_n_0_1_14_wf : GatherDims.WF S31x4 S2097152x1 S2097152x4 [1] [0] [] [0] [] 1 ![1, 4]
  dot_S2097152x24_S24x32_S2097152x32_1_0_0_1_n_n_wf : DotDims.WF S2097152x24 S24x32 S2097152x32 [1] [0] [0] [1] [] []
  gather_S100000x32_S2097152x1_S2097152x32_1_0_n_n_0_1_132_wf : GatherDims.WF S100000x32 S2097152x1 S2097152x32 [1] [0] [] [0] [] 1 ![1, 32]

variable [Facts₀]

def gather_S7x4_S2097152x1_S2097152x4_1_0_n_n_0_1_14 : GatherDims S7x4 S2097152x1 S2097152x4 where
  offsetDims := [1]
  collapsedSliceDims := [0]
  operandBatchingDims := []
  startIndicesBatchingDims := []
  startIndexMap := [0]
  indexVectorDim := 1
  sliceSizes := ![1, 4]
  wf := gather_S7x4_S2097152x1_S2097152x4_1_0_n_n_0_1_14_wf
def gather_S24x4_S2097152x1_S2097152x4_1_0_n_n_0_1_14 : GatherDims S24x4 S2097152x1 S2097152x4 where
  offsetDims := [1]
  collapsedSliceDims := [0]
  operandBatchingDims := []
  startIndicesBatchingDims := []
  startIndexMap := [0]
  indexVectorDim := 1
  sliceSizes := ![1, 4]
  wf := gather_S24x4_S2097152x1_S2097152x4_1_0_n_n_0_1_14_wf
def gather_S2x4_S2097152x1_S2097152x4_1_0_n_n_0_1_14 : GatherDims S2x4 S2097152x1 S2097152x4 where
  offsetDims := [1]
  collapsedSliceDims := [0]
  operandBatchingDims := []
  startIndicesBatchingDims := []
  startIndexMap := [0]
  indexVectorDim := 1
  sliceSizes := ![1, 4]
  wf := gather_S2x4_S2097152x1_S2097152x4_1_0_n_n_0_1_14_wf
def gather_S100x4_S2097152x1_S2097152x4_1_0_n_n_0_1_14 : GatherDims S100x4 S2097152x1 S2097152x4 where
  offsetDims := [1]
  collapsedSliceDims := [0]
  operandBatchingDims := []
  startIndicesBatchingDims := []
  startIndexMap := [0]
  indexVectorDim := 1
  sliceSizes := ![1, 4]
  wf := gather_S100x4_S2097152x1_S2097152x4_1_0_n_n_0_1_14_wf
def gather_S12x4_S2097152x1_S2097152x4_1_0_n_n_0_1_14 : GatherDims S12x4 S2097152x1 S2097152x4 where
  offsetDims := [1]
  collapsedSliceDims := [0]
  operandBatchingDims := []
  startIndicesBatchingDims := []
  startIndexMap := [0]
  indexVectorDim := 1
  sliceSizes := ![1, 4]
  wf := gather_S12x4_S2097152x1_S2097152x4_1_0_n_n_0_1_14_wf
def gather_S31x4_S2097152x1_S2097152x4_1_0_n_n_0_1_14 : GatherDims S31x4 S2097152x1 S2097152x4 where
  offsetDims := [1]
  collapsedSliceDims := [0]
  operandBatchingDims := []
  startIndicesBatchingDims := []
  startIndexMap := [0]
  indexVectorDim := 1
  sliceSizes := ![1, 4]
  wf := gather_S31x4_S2097152x1_S2097152x4_1_0_n_n_0_1_14_wf
def dot_S2097152x24_S24x32_S2097152x32_1_0_0_1_n_n : DotDims S2097152x24 S24x32 S2097152x32 where
  lhsContracting := [1]
  rhsContracting := [0]
  lhsNonContracting := [0]
  rhsNonContracting := [1]
  lhsBatch := []
  rhsBatch := []
  wf := dot_S2097152x24_S24x32_S2097152x32_1_0_0_1_n_n_wf
def gather_S100000x32_S2097152x1_S2097152x32_1_0_n_n_0_1_132 : GatherDims S100000x32 S2097152x1 S2097152x32 where
  offsetDims := [1]
  collapsedSliceDims := [0]
  operandBatchingDims := []
  startIndicesBatchingDims := []
  startIndexMap := [0]
  indexVectorDim := 1
  sliceSizes := ![1, 32]
  wf := gather_S100000x32_S2097152x1_S2097152x32_1_0_n_n_0_1_132_wf

class Facts : Prop extends Facts₀ where

variable [Facts]
-- ==== Proof.FrameKernel.lean ====
/-
  The frame of the program: @main is a stretch of host operations (six small-table gathers, their
  concatenation, the projection `u · W + b`, the gather of the item rows, the two roundings to bf16) followed by ONE
  pipelined region over 256 grid points. At point `t` the region stages rows `8192·t … 8192·t + 8191` of the two
  `[2097152, 32]` operands, the body multiplies the two blocks entry by entry and sums each row's 32 products, and
  the `[8192]` block of row sums is written back to rows `8192·t …` of the result.
  Nothing here depends on what the host operations compute: they are pure, write only their own result buffers,
  and so leave every argument array as launched; the region reads its two operand arrays as the host stretch left
  them (`V`), and its body loads whole staging buffers and stores one whole staging buffer, so it cannot fault.
  What the run leaves in the result array is kept by name (`run_main`'s post: the library's fold of the blocks
  `out0_2` written back), for the value claim.
-/
import proofs.«417324_j55619826483857_3_alg».proof.Proof.Gen.Kernel.Launch
import proofs.«417324_j55619826483857_3_alg».proof.Proof.Gen.Kernel.Skeleton
import proofs.«417324_j55619826483857_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents with each host operation's result written
    over its own buffer, in program order. -/
abbrev V (c : Dev nD) (b : Ref sig .tc) : Buf (Elt F) ((c : Thread nD τ).loc b) :=
  StableHlo.after hostOps0 (fun b => m (c, b)) b

/-- Every host operation here computes its result from its operands: none leaves a buffer at contents the
    machine picks. -/
theorem hostOps0_fresh : (hostOps0 : List (HloOp τ sig (Elt F))).Forall fun op => op.fresh = ∅ := by
  simp only [List.Forall]; repeat' constructor

/-- @main is the host stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes exactly its own result buffer, and that buffer is none of the sixteen arguments:
    decided reference by reference. -/
local macro "not_written" : tactic => `(tactic| (
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)))

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by not_written))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by not_written))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by not_written))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by not_written))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by not_written))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by not_written))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by not_written))

/-! ## The windows' blocks -/

/-- Window `w`'s block at point `t`: rows `8192·t … 8192·t + 8191` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand window's staging buffer holds its block at every point: it is fetched at every point and the body
    only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window stages an argument array, so a final state of the run has each argument at its region-entry
    contents, which are the launch contents. -/
theorem kept_args (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩

/-- The frame claim's post from the run's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_args m dats r h c) h

/-! ## The body -/

/-- The whole operand block and the whole result block: the body's three accesses. -/
abbrev r0_0 : Rect S8192x32 := Rect.unit (s := S8192x32) ![0, 0] S8192x32.size inb_S8192x32_S8192x32_0_0
abbrev r0_1 : Rect S8192 := Rect.unit (s := S8192) ![0] S8192.size inb_S8192_S8192_0

/-- The result window's staging buffer after the body: its one store, of the row sums of the entrywise product of
    the two operand blocks. -/
def out0_2 (x0 : Vec F S8192x32 .bf16) (x1 : Vec F S8192x32 .bf16) : Vec F S8192 .f32 :=
  View.canon [⟨r0_1, k0_pay1 (View.ld x0 r0_0) (View.ld x1 r0_0)⟩]

/-- The store covers the buffer. -/
theorem cover0_2 (p0 : Vec F S8192 .f32) (y : S8192.Idx) :
    ∃ pc ∈ ([⟨r0_1, p0⟩] : List (View.Piece (Elt F) S8192 .f32)), y ∈ pc.1.set :=
  View.cover_of_tiled [⟨r0_1, p0⟩] S8192.size (by rfl) y

set_option maxHeartbeats 1000000 in
/-- The body on whole staging buffers, the operands' at contents `x0`, `x1` and the result's at anything: it loads
    both operands whole, loads the result buffer (the value is not used), and stores the row sums over the whole
    result buffer; the operands' buffers are left as they were. -/
theorem sound_kernel (c : Dev nD) (E : Set ℕ) (i : grid0.Coords) (arg1 : Memref sig .tc .vmem S8192x32 .bf16) (harg1 : arg1.IsWhole) (arg2 : Memref sig .tc .vmem S8192x32 .bf16) (harg2 : arg2.IsWhole) (arg3 : Memref sig .tc .vmem S8192 .f32) (harg3 : arg3.IsWhole)
    (x0 : Vec F S8192x32 .bf16) (x1 : Vec F S8192x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mf_kernel i arg1 harg1 arg2 harg2 arg3 harg3) K := by
  simp only [cc0__mf_kernel_eq_skeleton]; unfold cc0__mf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each operand's buffer at its
    block and the result's at the row sums of the two blocks' product; the invariant says nothing beyond the
    buffers the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; the two
    operand arrays and the result array end at what the write-backs of the proof data leave, every other buffer
    at its region-entry contents. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its sixteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.Kernel.Frm

end
-- ==== Proof.FrameKernelIdeal.lean ====
/-
  The frame of the program: @main is a stretch of host operations (six small-table gathers, their
  concatenation, the projection `u · W + b`, the gather of the item rows, the two roundings to bf16) followed by ONE
  pipelined region over 256 grid points. At point `t` the region stages rows `8192·t … 8192·t + 8191` of the two
  `[2097152, 32]` operands, the body multiplies the two blocks entry by entry and sums each row's 32 products, and
  the `[8192]` block of row sums is written back to rows `8192·t …` of the result.
  Nothing here depends on what the host operations compute: they are pure, write only their own result buffers,
  and so leave every argument array as launched; the region reads its two operand arrays as the host stretch left
  them (`V`), and its body loads whole staging buffers and stores one whole staging buffer, so it cannot fault.
  What the run leaves in the result array is kept by name (`run_main`'s post: the library's fold of the blocks
  `out0_2` written back), for the value claim.
-/
import proofs.«417324_j55619826483857_3_alg».proof.Proof.Gen.KernelIdeal.Launch
import proofs.«417324_j55619826483857_3_alg».proof.Proof.Gen.KernelIdeal.Skeleton
import proofs.«417324_j55619826483857_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents with each host operation's result written
    over its own buffer, in program order. -/
abbrev V (c : Dev nD) (b : Ref sig .tc) : Buf (Elt F) ((c : Thread nD τ).loc b) :=
  StableHlo.after hostOps0 (fun b => m (c, b)) b

/-- Every host operation here computes its result from its operands: none leaves a buffer at contents the
    machine picks. -/
theorem hostOps0_fresh : (hostOps0 : List (HloOp τ sig (Elt F))).Forall fun op => op.fresh = ∅ := by
  simp only [List.Forall]; repeat' constructor

/-- @main is the host stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes exactly its own result buffer, and that buffer is none of the sixteen arguments:
    decided reference by reference. -/
local macro "not_written" : tactic => `(tactic| (
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)))

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by not_written))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by not_written))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by not_written))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by not_written))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by not_written))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by not_written))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by not_written))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by not_written))

/-! ## The windows' blocks -/

/-- Window `w`'s block at point `t`: rows `8192·t … 8192·t + 8191` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand window's staging buffer holds its block at every point: it is fetched at every point and the body
    only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window stages an argument array, so a final state of the run has each argument at its region-entry
    contents, which are the launch contents. -/
theorem kept_args (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩

/-- The frame claim's post from the run's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_args m dats r h c) h

/-! ## The body -/

/-- The whole operand block and the whole result block: the body's three accesses. -/
abbrev r0_0 : Rect S8192x32 := Rect.unit (s := S8192x32) ![0, 0] S8192x32.size inb_S8192x32_S8192x32_0_0
abbrev r0_1 : Rect S8192 := Rect.unit (s := S8192) ![0] S8192.size inb_S8192_S8192_0

/-- The result window's staging buffer after the body: its one store, of the row sums of the entrywise product of
    the two operand blocks. -/
def out0_2 (x0 : Vec F S8192x32 .bf16) (x1 : Vec F S8192x32 .bf16) : Vec F S8192 .f32 :=
  View.canon [⟨r0_1, k0_pay1 (View.ld x0 r0_0) (View.ld x1 r0_0)⟩]

/-- The store covers the buffer. -/
theorem cover0_2 (p0 : Vec F S8192 .f32) (y : S8192.Idx) :
    ∃ pc ∈ ([⟨r0_1, p0⟩] : List (View.Piece (Elt F) S8192 .f32)), y ∈ pc.1.set :=
  View.cover_of_tiled [⟨r0_1, p0⟩] S8192.size (by rfl) y

set_option maxHeartbeats 1000000 in
/-- The body on whole staging buffers, the operands' at contents `x0`, `x1` and the result's at anything: it loads
    both operands whole, loads the result buffer (the value is not used), and stores the row sums over the whole
    result buffer; the operands' buffers are left as they were. -/
theorem sound_kernel (c : Dev nD) (E : Set ℕ) (i : grid0.Coords) (arg1 : Memref sig .tc .vmem S8192x32 .bf16) (harg1 : arg1.IsWhole) (arg2 : Memref sig .tc .vmem S8192x32 .bf16) (harg2 : arg2.IsWhole) (arg3 : Memref sig .tc .vmem S8192 .f32) (harg3 : arg3.IsWhole)
    (x0 : Vec F S8192x32 .bf16) (x1 : Vec F S8192x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mf_kernel i arg1 harg1 arg2 harg2 arg3 harg3) K := by
  simp only [cc0__mf_kernel_eq_skeleton]; unfold cc0__mf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each operand's buffer at its
    block and the result's at the row sums of the two blocks' product; the invariant says nothing beyond the
    buffers the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; the two
    operand arrays and the result array end at what the write-backs of the proof data leave, every other buffer
    at its region-entry contents. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its sixteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.KernelIdeal.Frm

end
-- ==== Proof.ValueKernel.lean ====
/-
  What the idealized kernel leaves in its result array, as ONE function of the two operand arrays the region
  finds: entry `i` is the sum over the 32 factors `k` of `user[i, k] · item[i, k]` (`rowDot`).
  At a grid point `t` the body's payload is the row sums of the entrywise product of the two staged blocks; the
  roundings from bf16 back to f32 are the identity on extended reals. Block `t` of an operand is rows
  `8192·t … 8192·t + 8191` (all 32 columns) of its array, and block `t` of the result is the same rows of the
  result array, so what point `t` writes back is `rowDot` of the operand arrays read through the point's block;
  the 256 blocks tile the 2097152 rows (row `r` lies in block `r / 8192`), so the array ends at `rowDot`.
-/
import proofs.«417324_j55619826483857_3_alg».proof.Proof.FrameKernelIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The result as a function of the operand arrays -/

/-- Row `i` of the result: the dot product of row `i` of the two `[2097152, 32]` operands. -/
def rowDot (u it : FVec Ideal S2097152x32 .bf16) : FVec Ideal S2097152 .f32 :=
  fun i => ∑ k : Fin 32, u (ix2 (i 0) k) * it (ix2 (i 0) k)

/-! ## The body's payload at an index -/

/-- The source index of the row sum at row `r` with column `k` inserted is `(r, k)`. -/
theorem lift_eq (r : Fin 8192) (k : Fin 32) : reduces_S8192x32_S8192.lift (ix1 r) k = ix2 r k :=
  funext fun a => Fin.ext (by match a with | ⟨0, _⟩ => rfl | ⟨1, _⟩ => rfl)

/-- The product of the two widened blocks at an index is the product of the entries. -/
theorem prod_apply (x0 x1 : FVec Ideal S8192x32 .bf16) (i : S8192x32.Idx) :
    mulf (extf .f32 (shapeCast S8192x32 x0 shapeCasts_S8192x32_S8192x32) bitsLt_bf16_f32)
      (extf .f32 (shapeCast S8192x32 x1 shapeCasts_S8192x32_S8192x32) bitsLt_bf16_f32) i = x0 i * x1 i := by
  rw [shapeCast_self, shapeCast_self]; rfl

/-- The payload at row `r` of a block: the sum over the 32 columns of the product of the two loaded blocks'
    entries (the widening from bf16 and the same-shape cast change nothing). -/
theorem pay_apply (x0 x1 : FVec Ideal S8192x32 .bf16) (r : Fin 8192) :
    k0_pay1 (F := Ideal) x0 x1 (ix1 r) = ∑ k : Fin 32, x0 (ix2 r k) * x1 (ix2 r k) := by
  unfold k0_pay1
  refine (Ideal.multiReduction_add_single _ _ reduces_S8192x32_S8192 (.inl rfl) rfl (ix1 r)).trans ?_
  refine Finset.sum_congr rfl fun k _ => ?_
  exact (prod_apply x0 x1 _).trans (congrArg (fun i => x0 i * x1 i) (lift_eq r k))

/-- One point's result from the arrays: if the two loaded blocks are rows `b·8192 …` of `u` and `it`, the payload
    at block row `j` is `rowDot u it` at array row `b·8192 + j`. -/
theorem point_eq (x0 x1 : FVec Ideal S8192x32 .bf16) (u it : FVec Ideal S2097152x32 .bf16) (b : Nat)
    (h0 : ∀ (r : Fin 8192) (k : Fin 32) (i : S2097152x32.Idx), (i 0).val = b * 8192 + r.val → (i 1).val = k.val → x0 (ix2 r k) = u i)
    (h1 : ∀ (r : Fin 8192) (k : Fin 32) (i : S2097152x32.Idx), (i 0).val = b * 8192 + r.val → (i 1).val = k.val → x1 (ix2 r k) = it i)
    (j : S8192.Idx) (i : S2097152.Idx) (hi : (i 0).val = b * 8192 + (j 0).val) :
    k0_pay1 (F := Ideal) x0 x1 j = rowDot u it i := by
  obtain ⟨r, rfl⟩ : ∃ r : Fin 8192, j = ix1 r := ⟨j 0, eq_ix1 j⟩
  rw [pay_apply]
  unfold rowDot
  refine Finset.sum_congr rfl fun k _ => ?_
  rw [h0 r k (ix2 (i 0) k) hi rfl, h1 r k (ix2 (i 0) k) hi rfl]

/-! ## From blocks to the array -/

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The printed index maps, decided over the 256 points: at point `t` both operands' block index is `(t, 0)` and
    the result's is `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- Block `t` of the first operand puts block row `r`, column `k` at array row `8192·t + r`, column `k`. -/
theorem emb0 (t : Fin cfg0.N) (r : Fin 8192) (k : Fin 32) (i : S2097152x32.Idx)
    (h0 : (i 0).val = t.val * 8192 + r.val) (h1 : (i 1).val = k.val) : ((cfg0.win 0).blk t).view.emb (ix2 r k) = i := by
  obtain ⟨e0, e1, -, -, -⟩ := idx_facts t
  funext a; apply Fin.ext
  match a with
  | ⟨0, _⟩ => show win0_0.index t (0 : Fin 2) * 8192 + 1 * r.val = (i 0).val; omega
  | ⟨1, _⟩ => show win0_0.index t (1 : Fin 2) * 32 + 1 * k.val = (i 1).val; omega

/-- The same for the second operand. -/
theorem emb1 (t : Fin cfg0.N) (r : Fin 8192) (k : Fin 32) (i : S2097152x32.Idx)
    (h0 : (i 0).val = t.val * 8192 + r.val) (h1 : (i 1).val = k.val) : ((cfg0.win 1).blk t).view.emb (ix2 r k) = i := by
  obtain ⟨-, -, e2, e3, -⟩ := idx_facts t
  funext a; apply Fin.ext
  match a with
  | ⟨0, _⟩ => show win0_1.index t (0 : Fin 2) * 8192 + 1 * r.val = (i 0).val; omega
  | ⟨1, _⟩ => show win0_1.index t (1 : Fin 2) * 32 + 1 * k.val = (i 1).val; omega

/-- Block `t` of the result puts block row `j` at array row `8192·t + j`. -/
theorem emb2 (t : Fin cfg0.N) (j : S8192.Idx) : ((((cfg0.win 2).blk t).view.emb j) 0).val = t.val * 8192 + (j 0).val := by
  obtain ⟨-, -, -, -, e4⟩ := idx_facts t
  show win0_2.index t (0 : Fin 1) * 8192 + 1 * (j 0).val = t.val * 8192 + (j 0).val
  omega

/-- For ANY two operand arrays: the row sums of the product of their blocks at `t` are block `t` of `rowDot`. -/
theorem flushed_core (A0 A1 : FVec Ideal S2097152x32 .bf16) (t : Fin cfg0.N) :
    (cfg0.win 2).cut (grid0.coords t) (k0_pay1 (F := Ideal) (((cfg0.win 0).blk t).view.read (Elt Ideal) A0) (((cfg0.win 1).blk t).view.read (Elt Ideal) A1))
      = ((cfg0.win 2).blk t).view.read (Elt Ideal) (rowDot A0 A1) := by
  funext j
  exact point_eq _ _ A0 A1 t.val (fun r k i h0 h1 => congrArg A0 (emb0 t r k i h0 h1))
    (fun r k i h0 h1 => congrArg A1 (emb1 t r k i h0 h1)) j _ (emb2 t j)

set_option maxHeartbeats 1000000 in
/-- What point `t` writes back is block `t` of `rowDot` of the operand arrays as the region finds them. -/
theorem flushed_eq (c : Dev nD) (t : Fin cfg0.N) :
    (dats m 0 c).flushed 2 t = ((cfg0.win 2).blk t).view.read (Elt Ideal) (rowDot (V m c main_v54) (V m c main_v55)) := by
  show (cfg0.win 2).cut (grid0.coords t) ((dats m 0 c).after 2 t) = _
  rw [after0_2]
  unfold out0_2
  rw [View.canon_unit_zero hz1]
  simp only [View.ld_unit_zero (S := S8192x32) hz2]
  exact flushed_core (V m c main_v54) (V m c main_v55) t

/-- A row of the result array is in point `t`'s block iff it is one of the block's 8192 rows. -/
theorem mem_blk (t : Fin cfg0.N) (i : S2097152.Idx) :
    i ∈ ((cfg0.win 2).blk t).view.set ↔ ∀ a : Fin 1, win0_2.index t a * S8192.size a ≤ (i a).val ∧ (i a).val < win0_2.index t a * S8192.size a + S8192.size a := by
  show i ∈ ((View.whole main_v56).slice (win0_2.rect t)).set ↔ _
  rw [View.set_slice_whole, Rect.mem_set_unit]
  exact Iff.rfl

/-- Every row is in some point's block: row `r` in block `r / 8192`. -/
theorem cover (i : S2097152.Idx) : ∃ t : Fin cfg0.N, (cfg0.win 2).flush t = true ∧ i ∈ ((cfg0.win 2).blk t).view.set := by
  have hi : (i 0).val < 2097152 := (i 0).isLt
  have ht : (i 0).val / 8192 < cfg0.N := by show (i 0).val / 8192 < 256; omega
  refine ⟨⟨(i 0).val / 8192, ht⟩, flush0_2 _, ?_⟩
  rw [mem_blk]
  have e : win0_2.index ⟨(i 0).val / 8192, ht⟩ (0 : Fin 1) = (i 0).val / 8192 := (idx_facts ⟨(i 0).val / 8192, ht⟩).2.2.2.2
  intro a
  match a with
  | ⟨0, _⟩ =>
    show win0_2.index ⟨(i 0).val / 8192, ht⟩ (0 : Fin 1) * 8192 ≤ (i 0).val ∧ (i 0).val < win0_2.index ⟨(i 0).val / 8192, ht⟩ (0 : Fin 1) * 8192 + 8192
    omega

/-- The result array after the run is `rowDot` of the operand arrays as the region finds them. -/
theorem final (c : Dev nD) : (dats m 0 c).arrAt 2 cfg0.N = rowDot (V m c main_v54) (V m c main_v55) :=
  (dats m 0 c).arrAt_eq_of_cover 2 (rowDot (V m c main_v54) (V m c main_v55)) (fun t _ => flushed_eq m c t) cover

/-! ## The run, read -/

/-- Every weakly fair execution of the idealized program ends with the result array at `rowDot` of the two operand
    arrays the host stretch computed, and the sixteen arguments unchanged. -/
theorem run : θ_run defs (onTc (τ := τ) (main (F := Ideal))) ⟨m, fun _ => 0, ρ⟩ fun r => ∀ c : Dev nD,
      r.2.mem ((c.tc : Thread nD τ).loc main_v56) = rowDot (V m c main_v54) (V m c main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 2).trans (final m c), kept_args m (dats m) r h c⟩) (run_main m ρ)

end Cert.KernelIdeal.Val

end
-- ==== Proof.Bridge.lean ====
/-
  The two programs compute the same function of the arguments.
  Both begin with the same host operations: six gathers of 4-wide rows from the small tables (a negative index
  first shifted by the table's length), their concatenation to `[2097152, 24]`, the projection `u · W + b`
  (`user`), and the gather of 32-wide rows of the item table (`item`). The kernel program then rounds both to bf16
  — the identity on extended reals — and its region computes the row sums of `user · item`; the reference multiplies
  the two arrays and sums each row from a zero initial value. So with `user` and `item` kept as they are, never opened:
  the reference's result at row `i` is `0 + ∑ k, user[i, k] · item[i, k]`, which is `rowDot user item` at `i`.
-/
import proofs.«417324_j55619826483857_3_alg».proof.Proof.ValueKernel
import proofs.«417324_j55619826483857_3_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open scoped BigOperators

/-! ## The operand arrays the region finds are the reference's `user` and `item` stages -/

section Kernel

open Cert.KernelIdeal Cert.KernelIdeal.Gen Cert.KernelIdeal.Frm

variable (m : (ℓ : Loc nD τ sig) → Buf (Elt Ideal) ℓ)

set_option maxHeartbeats 4000000 in
/-- The first operand array, as the host stretch leaves it, is the projection `u · W + b` of the gathered and
    concatenated small-table rows: the rounding to bf16 is the identity, and the operations before it are, one by
    one, the reference's. -/
theorem user_eq (c : Dev nD) : (V m c main_v54 : FVec Ideal S2097152x32 .bf16)
    = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  dsimp only [V, hostOps0]
  after_results_simp <;> rfl

set_option maxHeartbeats 4000000 in
/-- The second operand array is the gathered rows of the item table. -/
theorem item_eq (c : Dev nD) : (V m c main_v55 : FVec Ideal S2097152x32 .bf16)
    = Cert.ReferenceIdeal.Read.val_main_v53 (F := Ideal) (m ((c.tc : Thread nD τ).loc main_arg6)) (m ((c.tc : Thread nD τ).loc main_arg15)) := by
  dsimp only [V, hostOps0]
  after_results_simp <;> rfl

end Kernel

/-! ## The reference's result is `rowDot` of its `user` and `item` stages -/

section Reference

open Cert.ReferenceIdeal Cert.ReferenceIdeal.Gen Cert.ReferenceIdeal.Read

/-- The reference's row sum inserts column `k` into row `i`: the index `(i, k)`. -/
theorem idx_eq (i : S2097152.Idx) (k : Fin 32) : idx_main_v55 i k = ix2 (i 0) k :=
  funext fun a => Fin.ext (by match a with | ⟨0, _⟩ => rfl | ⟨1, _⟩ => rfl)

/-- Row `i` of the reference's result: zero plus the sum over the 32 factors of `user[i, k] · item[i, k]`. -/
theorem ref_eq (x0 x1 x2 x3 x4 x5 x6 : (⟨S2097152, .i32⟩ : BufTy).Contents (Elt Ideal)) (x7 : (⟨S7x4, .f32⟩ : BufTy).Contents (Elt Ideal)) (x8 : (⟨S24x4, .f32⟩ : BufTy).Contents (Elt Ideal)) (x9 : (⟨S2x4, .f32⟩ : BufTy).Contents (Elt Ideal)) (x10 : (⟨S100x4, .f32⟩ : BufTy).Contents (Elt Ideal)) (x11 : (⟨S12x4, .f32⟩ : BufTy).Contents (Elt Ideal)) (x12 : (⟨S31x4, .f32⟩ : BufTy).Contents (Elt Ideal)) (x13 : (⟨S24x32, .f32⟩ : BufTy).Contents (Elt Ideal)) (x14 : (⟨S32, .f32⟩ : BufTy).Contents (Elt Ideal)) (x15 : (⟨S100000x32, .f32⟩ : BufTy).Contents (Elt Ideal)) :
    val_main_v55 (F := Ideal) x0 x1 x2 x3 x4 x5 x6 x7 x8 x9 x10 x11 x12 x13 x14 x15
      = Cert.KernelIdeal.Val.rowDot (val_main_v46 (F := Ideal) x0 x1 x2 x3 x4 x5 x7 x8 x9 x10 x11 x12 x13 x14) (val_main_v53 (F := Ideal) x6 x15) := by
  funext i
  rw [val_main_v55_apply, val_main_cst_apply]
  unfold Cert.KernelIdeal.Val.rowDot
  rw [Ideal.ofBits_def, Ideal.ofBits_zero_f32, zero_add]
  refine Finset.sum_congr rfl fun k _ => ?_
  rw [val_main_v54_apply, idx_eq]
  rfl

end Reference

end Cert.Bridge

end
-- ==== Proof.lean ====
/-
  The certificate. The kernel program and the reference both compute, from seven index vectors, six small embedding
  tables, a projection `W`, `b` and an item table, the vector of row-wise dot products
      out[i] = ∑ₖ user[i, k] · item[i, k],   user = concat(tables[indices]) · W + b,   item = item_table[destination],
  over 2097152 rows and 32 factors. The kernel program computes `user` and `item` by the same host operations as the
  reference, rounds them to bf16 (the identity on extended reals) and forms the row sums in a pipelined region, 8192
  rows per grid point; the reference multiplies and sums on the host from a zero initial value. The two sums are the same term by term (the
  only law used is `0 + x = x`), so no finiteness is needed and the precondition is never opened.
  * the three frames: the two kernel programs' by the frame modules (host operations cannot fault and write only
    their own buffers; the body loads and stores whole staging buffers), the reference's by its run;
  * `preserves`: the idealization rewrote nothing;
  * `algebraic`: the kernel's result array is `rowDot user item` (ValueKernel), the reference's run ends at the same
    function of arguments that agree (Bridge).
-/
import proofs.«417324_j55619826483857_3_alg».proof.Defs
import proofs.«417324_j55619826483857_3_alg».proof.Proof.Gen.Kernel
import proofs.«417324_j55619826483857_3_alg».proof.Proof.Gen.KernelIdeal
import proofs.«417324_j55619826483857_3_alg».proof.Proof.Gen.ReferenceIdeal
import proofs.«417324_j55619826483857_3_alg».proof.Proof.Gen.Pre_finite_inputs
import proofs.«417324_j55619826483857_3_alg».proof.Proof.Gen.ReferenceIdeal.Run
import proofs.«417324_j55619826483857_3_alg».proof.Proof.Gen.ReferenceIdeal.Read
import proofs.«417324_j55619826483857_3_alg».proof.Proof.FrameKernel
import proofs.«417324_j55619826483857_3_alg».proof.Proof.FrameKernelIdeal
import proofs.«417324_j55619826483857_3_alg».proof.Proof.ValueKernel
import proofs.«417324_j55619826483857_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the sixteen arguments both programs end with the result `rowDot user item`:
    the kernel's region leaves it in the result array, and the reference's multiply-and-sum is the same sum, its
    `user` and `item` the kernel's operand arrays once the arguments are identified. -/
theorem algebraic : Cert.algebraic_KernelIdeal_ReferenceIdeal := by
  intro m ρ m' ρ' _ hagree
  refine ⟨fun c => Cert.KernelIdeal.Val.rowDot (Cert.KernelIdeal.Frm.V m c Cert.KernelIdeal.main_v54) (Cert.KernelIdeal.Frm.V m c Cert.KernelIdeal.main_v55),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Val.rowDot (Cert.KernelIdeal.Frm.V m c Cert.KernelIdeal.main_v54) (Cert.KernelIdeal.Frm.V m c Cert.KernelIdeal.main_v55)
  obtain ⟨a0, a1, a2, a3, a4, a5, a6, a7, a8, a9, a10, a11, a12, a13, a14, a15⟩ := hagree c
  rw [Cert.ReferenceIdeal.Read.val_main_v55_eq, Cert.Bridge.ref_eq, Cert.Bridge.user_eq, Cert.Bridge.item_eq,
    a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
